-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1x64 : Shape := ⟨3, ![100000, 1, 64]⟩
abbrev S1600000x128 : Shape := ⟨2, ![1600000, 128]⟩
abbrev S1600000 : Shape := ⟨1, ![1600000]⟩
abbrev S128x64 : Shape := ⟨2, ![128, 64]⟩
abbrev S64 : Shape := ⟨1, ![64]⟩
abbrev S_ : Shape := ⟨0, ![]⟩

class Facts : Prop where
  bcast_S_S100000x1x64 : S_.BroadcastsInDim S100000x1x64 (![] : Fin 0 → Fin S100000x1x64.rank)
  reducesTo_S100000x1x64_S_d0_1_2 : S100000x1x64.ReducesTo [0, 1, 2] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x1x64 .f32) (main_arg1 : FVec F S1600000x128 .f32) (main_arg2 : IVec S1600000 32) (main_arg3 : IVec S1600000 32) (main_arg4 : FVec F S128x64 .f32) (main_arg5 : FVec F S64 .f32) : IVec S_ 1 :=
  let main_v0 : FVec F S100000x1x64 .f32 := Host.absf main_arg0
  let main_cst : FVec F S_ .f32 := constant S_ .f32 0x7F800000#32
  let main_v1 : FVec F S100000x1x64 .f32 := broadcastInDim S100000x1x64 ![] bcast_S_S100000x1x64 main_cst
  let main_v2 : IVec S100000x1x64 1 := cmpf .olt main_v0 main_v1
  let main_c : IVec S_ 1 := constantI S_ 1 1#1
  let main_v3 : IVec S_ 1 := (fun x v => Host.reduce IntOp.andi x v reducesTo_S100000x1x64_S_d0_1_2 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x1x64 : Shape := ⟨3, ![100000, 1, 64]⟩
abbrev S1600000x128 : Shape := ⟨2, ![1600000, 128]⟩
abbrev S1600000 : Shape := ⟨1, ![1600000]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S1x64 : Shape := ⟨2, ![1, 64]⟩
abbrev S4000x64 : Shape := ⟨2, ![4000, 64]⟩
abbrev S4000x128 : Shape := ⟨2, ![4000, 128]⟩
abbrev S4000x1 : Shape := ⟨2, ![4000, 1]⟩

abbrev nBuf : Space → Nat
  | .hbm => 64
  | .vmem => 12
  | .smem => 0
  | _ => 0

abbrev bufTy : (tb : Table) → Fin (tcTables nBuf tb) → BufTy
  | .hbm, ⟨0, _⟩ => ⟨S100000x1x64, .f32⟩
  | .hbm, ⟨1, _⟩ => ⟨S1600000x128, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S64, .f32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S1600000, .f32⟩
  | .hbm, ⟨37, _⟩ => ⟨S1600000x1, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S1x64, .f32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S100000x1x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x128, .f32⟩
  | .local _ .vmem, ⟨5, _⟩ => ⟨S4000x128, .f32⟩
  | .local _ .vmem, ⟨6, _⟩ => ⟨S4000x1, .f32⟩
  | .local _ .vmem, ⟨7, _⟩ => ⟨S4000x1, .f32⟩
  | .local _ .vmem, ⟨8, _⟩ => ⟨S128x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | _, _ => ⟨S100000x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S1600000_S1600000x1 : S1600000.ShapeCasts S1600000x1
  shapeCasts_S100000x1x64_S100000x64 : S100000x1x64.ShapeCasts S100000x64
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x128_S4000x128_0_0 : ∀ a, (![0, 0] : Fin 2 → Nat) a + S4000x128.size a ≤ S4000x128.size a
  h_S4000x128 : 0 < S4000x128.numel
  concatenates_S4000x64_S4000x64_S4000x128_d1 : Shape.Concatenates [S4000x64, S4000x64] S4000x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  shapeCasts_S100000x64_S100000x1x64 : S100000x64.ShapeCasts S100000x1x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  dot_S4000x128_S128x64_S4000x64_1_0_0_1_n_n_wf : DotDims.WF S4000x128 S128x64 S4000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1600000x64.size a
  hwx0_0 : ∀ i : grid0.Coords, EltTy.bits .f32 = 32 ∨ (Rect.block (s := S1600000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1600000x64.size a
  hwx0_1 : ∀ i : grid0.Coords, EltTy.bits .f32 = 32 ∨ (Rect.block (s := S1600000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S1600000x128.size a
  hwx0_2 : ∀ i : grid0.Coords, EltTy.bits .f32 = 32 ∨ (Rect.block (s := S1600000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S1600000x1.size a
  hwx0_3 : ∀ i : grid0.Coords, EltTy.bits .f32 = 32 ∨ (Rect.block (s := S1600000x1) S4000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S1600000x64.size a
  hwx0_6 : ∀ i : grid0.Coords, EltTy.bits .f32 = 32 ∨ (Rect.block (s := S1600000x64) S4000x64.size (cc0_transform_6 i) (hinb0_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v31) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x1x64 : Shape := ⟨3, ![100000, 1, 64]⟩
abbrev S1600000x128 : Shape := ⟨2, ![1600000, 128]⟩
abbrev S1600000 : Shape := ⟨1, ![1600000]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1x1 : Shape := ⟨3, ![100000, 1, 1]⟩
abbrev S1600000x1x64 : Shape := ⟨3, ![1600000, 1, 64]⟩
abbrev S1600000x1x128 : Shape := ⟨3, ![1600000, 1, 128]⟩
abbrev S1x1x64 : Shape := ⟨3, ![1, 1, 64]⟩
abbrev S1600000x1x1 : Shape := ⟨3, ![1600000, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S100000x1x64, .f32⟩
  | .hbm, ⟨1, _⟩ => ⟨S1600000x128, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S64, .f32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x1x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x1x64, .f32⟩
  | .hbm, ⟨37, _⟩ => ⟨S1600000x1x128, .f32⟩
  | .hbm, ⟨38, _⟩ => ⟨S1600000x1x128, .f32⟩
  | .hbm, ⟨39, _⟩ => ⟨S1600000x1x128, .f32⟩
  | .hbm, ⟨40, _⟩ => ⟨S1600000x1x64, .f32⟩
  | .hbm, ⟨41, _⟩ => ⟨S1x1x64, .f32⟩
  | .hbm, ⟨42, _⟩ => ⟨S1600000x1x64, .f32⟩
  | .hbm, ⟨43, _⟩ => ⟨S1600000x1x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x1x1, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x1x1, .f32⟩
  | .hbm, ⟨62, _⟩ => ⟨S1600000x1x1, .f32⟩
  | .hbm, ⟨63, _⟩ => ⟨S1600000x1x64, .f32⟩
  | .hbm, ⟨64, _⟩ => ⟨S1600000x1x64, .f32⟩
  | .hbm, ⟨65, _⟩ => ⟨S_, .f32⟩
  | .hbm, ⟨66, _⟩ => ⟨S100000x1x64, .f32⟩
  | .hbm, ⟨67, _⟩ => ⟨S1600000x1, .i32⟩
  | .hbm, ⟨68, _⟩ => ⟨S100000x1x64, .f32⟩
  | _, _ => ⟨S100000x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1x1_0 : S100000.BroadcastsInDim S100000x1x1 (![0] : Fin 1 → Fin S100000x1x1.rank)
  concatenates_S1600000x1x64_S1600000x1x64_S1600000x1x128_d2 : Shape.Concatenates [S1600000x1x64, S1600000x1x64] S1600000x1x128 2
  bcast_S1600000x128_S1600000x1x128_0_2 : S1600000x128.BroadcastsInDim S1600000x1x128 (![0, 2] : Fin 2 → Fin S1600000x1x128.rank)
  bcast_S64_S1x1x64_2 : S64.BroadcastsInDim S1x1x64 (![2] : Fin 1 → Fin S1x1x64.rank)
  bcast_S1x1x64_S1600000x1x64_0_1_2 : S1x1x64.BroadcastsInDim S1600000x1x64 (![0, 1, 2] : Fin 3 → Fin S1600000x1x64.rank)
  bcast_S1600000x1x1_S1600000x1x64_0_1_2 : S1600000x1x1.BroadcastsInDim S1600000x1x64 (![0, 1, 2] : Fin 3 → Fin S1600000x1x64.rank)
  bcast_S_S100000x1x64 : S_.BroadcastsInDim S100000x1x64 (![] : Fin 0 → Fin S100000x1x64.rank)
  scatter_S100000_S1600000x1_S1600000_n_0_0_1_wf : ScatterDims.WF S100000 S1600000x1 S1600000 [] [0] [0] 1
  gather_S100000x1x64_S1600000x1_S1600000x1x64_12_0_n_n_0_1_1164_wf : GatherDims.WF S100000x1x64 S1600000x1 S1600000x1x64 [1, 2] [0] [] [0] [] 1 ![1, 1, 64]
  dot_S1600000x1x128_S128x64_S1600000x1x64_2_0_01_1_n_n_wf : DotDims.WF S1600000x1x128 S128x64 S1600000x1x64 [2] [0] [0, 1] [1] [] []
  gather_S100000x1x1_S1600000x1_S1600000x1x1_12_0_n_n_0_1_111_wf : GatherDims.WF S100000x1x1 S1600000x1 S1600000x1x1 [1, 2] [0] [] [0] [] 1 ![1, 1, 1]
  scatter_S100000x1x64_S1600000x1_S1600000x1x64_12_0_0_1_wf : ScatterDims.WF S100000x1x64 S1600000x1 S1600000x1x64 [1, 2] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1x64_S1600000x1_S1600000x1x64_12_0_n_n_0_1_1164 : GatherDims S100000x1x64 S1600000x1 S1600000x1x64 where
  offsetDims := [1, 2]
  collapsedSliceDims := [0]
  operandBatchingDims := []
  startIndicesBatchingDims := []
  startIndexMap := [0]
  indexVectorDim := 1
  sliceSizes := ![1, 1, 64]
  wf := gather_S100000x1x64_S1600000x1_S1600000x1x64_12_0_n_n_0_1_1164_wf
def dot_S1600000x1x128_S128x64_S1600000x1x64_2_0_01_1_n_n : DotDims S1600000x1x128 S128x64 S1600000x1x64 where
  lhsContracting := [2]
  rhsContracting := [0]
  lhsNonContracting := [0, 1]
  rhsNonContracting := [1]
  lhsBatch := []
  rhsBatch := []
  wf := dot_S1600000x1x128_S128x64_S1600000x1x64_2_0_01_1_n_n_wf
def gather_S100000x1x1_S1600000x1_S1600000x1x1_12_0_n_n_0_1_111 : GatherDims S100000x1x1 S1600000x1 S1600000x1x1 where
  offsetDims := [1, 2]
  collapsedSliceDims := [0]
  operandBatchingDims := []
  startIndicesBatchingDims := []
  startIndexMap := [0]
  indexVectorDim := 1
  sliceSizes := ![1, 1, 1]
  wf := gather_S100000x1x1_S1600000x1_S1600000x1x1_12_0_n_n_0_1_111_wf
def scatter_S100000x1x64_S1600000x1_S1600000x1x64_12_0_0_1 : ScatterDims S100000x1x64 S1600000x1 S1600000x1x64 where
  updateWindowDims := [1, 2]
  insertedWindowDims := [0]
  scatterDimsToOperandDims := [0]
  indexVectorDim := 1
  wf := scatter_S100000x1x64_S1600000x1_S1600000x1x64_12_0_0_1_wf

class Facts : Prop extends Facts₀ where

variable [Facts]
-- ==== Proof.Spec.lean ====
import Idealize.ShloMosaic.PureOps.Ideal
import Idealize.ShloMosaic.Lib.ValueIdx

/-!
  The per-edge message of the graph layer, as plain functions over the extended reals.
  An edge `e` names a source node and a destination node; each name is a 32-bit word read signed and clamped into
  the node range. The edge's message at column `q` is
  `(∑ k < 128, (cat k + ef k) · W k q + b q) · cn`, where `cat` is the destination's feature row followed by the
  source's, `ef` the edge's own feature row and `cn` the product of the two nodes' degree normalisers.
-/

noncomputable section

open scoped BigOperators

namespace Cert.Spec

open Idealize.ShloMosaic Idealize.ShloMosaic.ValueIdx

/-- The node that edge `e`'s start index names: the word read as a signed integer, clamped into `[0, 99999]`. -/
def nodeOf (iv : IVec ⟨2, ![1600000, 1]⟩ 32) (e : Fin 1600000) : Fin 100000 :=
  ⟨min (iv (ix2 e (0 : Fin 1))).toInt.toNat 99999, by omega⟩

/-- Two rows of width 64 laid side by side: positions `0 … 63` read the first, `64 … 127` the second. -/
def cat2 (a b : Fin 64 → EReal) (k : Fin 128) : EReal :=
  if h : k.val < 64 then a ⟨k.val, h⟩ else b ⟨k.val - 64, by omega⟩

/-- One edge's message at column `q`: the affine map of the summed rows, scaled by the edge's normaliser. -/
def msg (cat ef : Fin 128 → EReal) (W : (⟨2, ![128, 64]⟩ : Shape).Idx → EReal) (bq cn : EReal) (q : Fin 64) : EReal :=
  ((∑ k : Fin 128, (cat k + ef k) * W (ix2 k q)) + bq) * cn

end Cert.Spec

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Payload.lean ====
import proofs.«117152_j56118042689984_1_alg».proof.Proof.Gen.KernelIdeal.Skeleton
import proofs.«117152_j56118042689984_1_alg».proof.Proof.Spec
import proofs.«117152_j56118042689984_1_alg».proof.Proof.LibPlainDot
import Idealize.ShloMosaic.Lib.Pipeline.Value
import Idealize.ShloMosaic.Lib.ValueLayout
import Idealize.ShloMosaic.PureOps.Ideal.Laws

/-!
  The kernel body's one stored value read at an index, at the ideal values: row `p`, column `q` of the block is the
  message of the row — the two feature blocks laid side by side plus the edge block, times the weight, plus the
  bias row, times the row's normaliser.
-/

noncomputable section

open scoped BigOperators

namespace Cert.Payload

open Idealize.ShloMosaic Idealize.ShloMosaic.ValueIdx Cert.KernelIdeal Cert.KernelIdeal.Gen

/-- A `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two `[4000, 64]` blocks joined along the columns read, at `(p, k)`, the side-by-side row of their rows `p`. -/
theorem cat_apply {α : Type} (a b : S4000x64.Idx → α) (h : Shape.Concatenates [S4000x64, S4000x64] S4000x128 1)
    (p : Fin 4000) (k : Fin 128) :
    concatenate S4000x128 1 [⟨S4000x64, a⟩, ⟨S4000x64, b⟩] h (ix2 p k)
      = if hk : k.val < 64 then a (ix2 p ⟨k.val, hk⟩) else b (ix2 p ⟨k.val - 64, by omega⟩) := by
  by_cases hk : k.val < 64
  · rw [dif_pos hk]
    refine concatenate_pair_apply_left 1 a b h (ix2 p k) rfl (ix2 p ⟨k.val, hk⟩) fun ax => ?_
    match ax with
    | ⟨0, _⟩ => rfl
    | ⟨1, _⟩ => rfl
  · rw [dif_neg hk]
    refine concatenate_pair_apply_right 1 a b h (ix2 p k) rfl rfl (ix2 p ⟨k.val - 64, by omega⟩) (fun ax hax => ?_) ?_
    · match ax with
      | ⟨0, _⟩ => rfl
      | ⟨1, _⟩ => exact absurd rfl hax
    · show (k.val - 64) + 64 = k.val
      omega

theorem pay_apply [Cert.KernelIdeal.Facts] (x0 x1 : Vec Ideal S4000x64 .f32) (x2 : Vec Ideal S4000x128 .f32) (x4 : Vec Ideal S128x64 .f32)
    (x5 : Vec Ideal S1x64 .f32) (x3 : Vec Ideal S4000x1 .f32) (p : Fin 4000) (q : Fin 64) :
    k0_pay1 (F := Ideal) x0 x1 x2 x4 x5 x3 (ix2 p q)
      = Cert.Spec.msg (Cert.Spec.cat2 (fun k => x0 (ix2 p k)) (fun k => x1 (ix2 p k))) (fun k => x2 (ix2 p k)) x4
          (x5 (ix2 (0 : Fin 1) q)) (x3 (ix2 p (0 : Fin 1))) q := by
  unfold k0_pay1 Cert.Spec.msg
  refine (mulf_apply _ _ _).trans ?_
  refine congrArg₂ (· * ·) ((addf_apply _ _ _).trans (congrArg₂ (· + ·) ?_ ?_)) ?_
  · -- the product into the zero block is the sum over the 128 contraction positions
    refine (Cert.Lib.PlainDot.matmul_zero_apply (M := 4000) (K := 128) (N := 64)
      dot_S4000x128_S128x64_S4000x64_1_0_0_1_n_n rfl rfl rfl rfl rfl rfl none _ _ p q).trans ?_
    refine Finset.sum_congr rfl fun k _ => ?_
    refine congrArg₂ (· * ·) ?_ rfl
    -- the left factor: the narrowing is the identity, the sum is entrywise, the casts are the identity
    refine (truncf_apply (φ := .f32) (ψ := .bf16) _ bitsLt_bf16_f32 (ix2 p k)).trans
      ((addf_apply _ _ _).trans (congrArg₂ (· + ·) ?_ rfl))
    rw [shapeCast_self, shapeCast_self]
    exact cat_apply x0 x1 _ p k
  · -- the bias row, cast to its own shape and repeated down the rows
    rw [shapeCast_self]
    exact broadcastTo_1b_ab_apply x5 _ p q
  · -- the normaliser column, cast to its own shape and repeated along the columns
    rw [shapeCast_self]
    exact broadcastTo_a1_ab_apply x3 _ p q

end Cert.Payload

end
-- ==== Proof.KernelArrays.lean ====
import proofs.«117152_j56118042689984_1_alg».proof.Proof.Gen.KernelIdeal.Frame
import proofs.«117152_j56118042689984_1_alg».proof.Proof.Spec
import Idealize.ShloMosaic.Lib.Pipeline.Value
import Idealize.ShloMosaic.Lib.ValueIdx

/-!
  The arrays the kernel's region reads, as it finds them, and the array of all edges' messages computed from them.
-/

set_option maxRecDepth 16384

noncomputable section

open scoped BigOperators

namespace Cert.KernelArrays

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ)

/-- The arrays the region reads, as it finds them, each at its literal shape. -/
abbrev aDst (c : Dev nD) : FVec Ideal S1600000x64 .f32 := V m c main_v31
abbrev aSrc (c : Dev nD) : FVec Ideal S1600000x64 .f32 := V m c main_v38
abbrev aEf (c : Dev nD) : FVec Ideal S1600000x128 .f32 := V m c main_arg1
abbrev aCn (c : Dev nD) : FVec Ideal S1600000x1 .f32 := V m c main_v23
abbrev aW (c : Dev nD) : FVec Ideal S128x64 .f32 := V m c main_arg4
abbrev aB (c : Dev nD) : FVec Ideal S1x64 .f32 := V m c main_v39

/-- Edge `e`'s message at column `q`, from those arrays. -/
def msgAt (c : Dev nD) (e : Fin 1600000) (q : Fin 64) : EReal :=
  Cert.Spec.msg (Cert.Spec.cat2 (fun k => aDst m c (ix2 e k)) (fun k => aSrc m c (ix2 e k))) (fun k => aEf m c (ix2 e k))
    (aW m c) (aB m c (ix2 (0 : Fin 1) q)) (aCn m c (ix2 e (0 : Fin 1))) q

/-- All edges' messages as one array. -/
def msgs (c : Dev nD) : FVec Ideal S1600000x64 .f32 :=
  fun i => msgAt m c ⟨(i 0).val, idx2_lt0 i⟩ ⟨(i 1).val, idx2_lt1 i⟩

end Cert.KernelArrays

end
-- ==== Proof.KernelEmb.lean ====
import proofs.«117152_j56118042689984_1_alg».proof.Proof.Gen.KernelIdeal.Frame
import proofs.«117152_j56118042689984_1_alg».proof.Proof.Spec
import proofs.«117152_j56118042689984_1_alg».proof.Proof.KernelArrays
import Idealize.ShloMosaic.Lib.Pipeline.Value
import Idealize.ShloMosaic.Lib.ValueIdx

/-!
  Where the blocks of the kernel's windows sit in their arrays. Grid point `t` of 400 takes rows `4000 t … 4000 t + 3999`
  of each row-blocked array; the weight and the bias are one block each.
-/

set_option maxRecDepth 16384

noncomputable section

open scoped BigOperators

namespace Cert.KernelEmb

open Idealize.ShloMosaic Idealize.ShloMosaic.TcCoe Idealize.ShloMosaic.ValueIdx Idealize.SL.Sem
open Cert.KernelIdeal Cert.KernelIdeal.Gen Cert.KernelArrays
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The printed index maps over the grid: the row-blocked windows sit at block row `t`, the weight and the bias at
    their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The grid has 400 points. -/
theorem t_lt (t : Fin cfg0.N) : t.val < 400 := by
  have h : cfg0.N = 400 := N_0
  have := t.isLt
  omega

/-- The edge that row `p` of point `t`'s blocks is: `4000 t + p`. -/
def row (t : Fin cfg0.N) (p : Fin 4000) : Fin 1600000 :=
  ⟨t.val * 4000 + p.val, by have := t_lt t; have := p.isLt; omega⟩

/-! ### Where each window's block sits in its array -/

theorem emb0 (t : Fin cfg0.N) (p : Fin 4000) (k : Fin 64) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 4000 + 1 * p.val = t.val * 4000 + p.val; omega
  | ⟨1, _⟩ => show win0_0.index t (1 : Fin 2) * 64 + 1 * k.val = k.val; omega

theorem emb1 (t : Fin cfg0.N) (p : Fin 4000) (k : Fin 64) :
    ((cfg0.win 1).blk t).view.emb (ix2 p k) = ix2 (row t p) k := by
  obtain ⟨-, -, e0, e1, -⟩ := idx_facts t
  funext a; apply Fin.ext
  match a with
  | ⟨0, _⟩ => show win0_1.index t (0 : Fin 2) * 4000 + 1 * p.val = t.val * 4000 + p.val; omega
  | ⟨1, _⟩ => show win0_1.index t (1 : Fin 2) * 64 + 1 * k.val = k.val; omega

theorem emb2 (t : Fin cfg0.N) (p : Fin 4000) (k : Fin 128) :
    ((cfg0.win 2).blk t).view.emb (ix2 p k) = ix2 (row t p) k := by
  obtain ⟨-, -, -, -, e0, e1, -⟩ := idx_facts t
  funext a; apply Fin.ext
  match a with
  | ⟨0, _⟩ => show win0_2.index t (0 : Fin 2) * 4000 + 1 * p.val = t.val * 4000 + p.val; omega
  | ⟨1, _⟩ => show win0_2.index t (1 : Fin 2) * 128 + 1 * k.val = k.val; omega

theorem emb3 (t : Fin cfg0.N) (p : Fin 4000) :
    ((cfg0.win 3).blk t).view.emb (ix2 p (0 : Fin 1)) = ix2 (row t p) (0 : Fin 1) := by
  obtain ⟨-, -, -, -, -, -, e0, e1, -⟩ := idx_facts t
  funext a; apply Fin.ext
  match a with
  | ⟨0, _⟩ => show win0_3.index t (0 : Fin 2) * 4000 + 1 * p.val = t.val * 4000 + p.val; omega
  | ⟨1, _⟩ => show win0_3.index t (1 : Fin 2) * 1 + 1 * 0 = 0; omega

theorem emb4 (t : Fin cfg0.N) (k : Fin 128) (q : Fin 64) :
    ((cfg0.win 4).blk t).view.emb (ix2 k q) = ix2 k q := by
  obtain ⟨-, -, -, -, -, -, -, -, e0, e1, -⟩ := idx_facts t
  funext a; apply Fin.ext
  match a with
  | ⟨0, _⟩ => show win0_4.index t (0 : Fin 2) * 128 + 1 * k.val = k.val; omega
  | ⟨1, _⟩ => show win0_4.index t (1 : Fin 2) * 64 + 1 * q.val = q.val; omega

theorem emb5 (t : Fin cfg0.N) (q : Fin 64) :
    ((cfg0.win 5).blk t).view.emb (ix2 (0 : Fin 1) q) = ix2 (0 : Fin 1) q := by
  obtain ⟨-, -, -, -, -, -, -, -, -, -, e0, e1, -⟩ := idx_facts t
  funext a; apply Fin.ext
  match a with
  | ⟨0, _⟩ => show win0_5.index t (0 : Fin 2) * 1 + 1 * 0 = 0; omega
  | ⟨1, _⟩ => show win0_5.index t (1 : Fin 2) * 64 + 1 * q.val = q.val; omega

theorem emb6 (t : Fin cfg0.N) (p : Fin 4000) (q : Fin 64) :
    ((cfg0.win 6).blk t).view.emb (ix2 p q) = ix2 (row t p) q := by
  obtain ⟨-, -, -, -, -, -, -, -, -, -, -, -, e0, e1⟩ := idx_facts t
  funext a; apply Fin.ext
  match a with
  | ⟨0, _⟩ => show win0_6.index t (0 : Fin 2) * 4000 + 1 * p.val = t.val * 4000 + p.val; omega
  | ⟨1, _⟩ => show win0_6.index t (1 : Fin 2) * 64 + 1 * q.val = q.val; omega

end Cert.KernelEmb

end
-- ==== Proof.KernelBlkRead.lean ====
import proofs.«117152_j56118042689984_1_alg».proof.Proof.Gen.KernelIdeal.Frame
import proofs.«117152_j56118042689984_1_alg».proof.Proof.Spec
import proofs.«117152_j56118042689984_1_alg».proof.Proof.KernelArrays
import proofs.«117152_j56118042689984_1_alg».proof.Proof.KernelEmb
import Idealize.ShloMosaic.Lib.Pipeline.Value
import Idealize.ShloMosaic.Lib.ValueIdx

/-!
  Each input block of the kernel at a grid point, read at a row, is its array read at the row's edge.
-/

set_option maxRecDepth 16384

noncomputable section

open scoped BigOperators

namespace Cert.KernelBlkRead

open Idealize.ShloMosaic Idealize.ShloMosaic.TcCoe Idealize.ShloMosaic.ValueIdx Idealize.SL.Sem
open Cert.KernelIdeal Cert.KernelIdeal.Gen Cert.KernelArrays Cert.KernelEmb
open Idealize.ShloMosaic.Pipeline (Dat Cfg Window)

variable (m : (ℓ : Loc nD τ sig) → Buf (Elt Ideal) ℓ)

/-! ### Each input block read at a row is its array read at the edge -/

theorem blk0_read (c : Dev nD) (t : Fin cfg0.N) (p : Fin 4000) (k : Fin 64) :
    iblk m c 0 t (ix2 p k) = aDst m c (ix2 (row t p) k) := by
  unfold iblk View.read
  refine (cast_eq _ _).trans ?_
  rw [emb0]
theorem blk1_read (c : Dev nD) (t : Fin cfg0.N) (p : Fin 4000) (k : Fin 64) :
    iblk m c 1 t (ix2 p k) = aSrc m c (ix2 (row t p) k) := by
  unfold iblk View.read
  refine (cast_eq _ _).trans ?_
  rw [emb1]
theorem blk2_read (c : Dev nD) (t : Fin cfg0.N) (p : Fin 4000) (k : Fin 128) :
    iblk m c 2 t (ix2 p k) = aEf m c (ix2 (row t p) k) := by
  unfold iblk View.read
  refine (cast_eq _ _).trans ?_
  rw [emb2]
theorem blk3_read (c : Dev nD) (t : Fin cfg0.N) (p : Fin 4000) :
    iblk m c 3 t (ix2 p (0 : Fin 1)) = aCn m c (ix2 (row t p) (0 : Fin 1)) := by
  unfold iblk View.read
  refine (cast_eq _ _).trans ?_
  rw [emb3]
theorem blk4_read (c : Dev nD) (t : Fin cfg0.N) : (iblk m c 4 t : Vec Ideal S128x64 .f32) = aW m c := by
  funext y
  obtain ⟨k, q, rfl⟩ : ∃ (k : Fin 128) (q : Fin 64), y = ix2 k q := ⟨y 0, y 1, eq_ix2 y⟩
  unfold iblk View.read
  refine (cast_eq _ _).trans ?_
  rw [emb4]
theorem blk5_read (c : Dev nD) (t : Fin cfg0.N) (q : Fin 64) :
    iblk m c 5 t (ix2 (0 : Fin 1) q) = aB m c (ix2 (0 : Fin 1) q) := by
  unfold iblk View.read
  refine (cast_eq _ _).trans ?_
  rw [emb5]

end Cert.KernelBlkRead

end
-- ==== Proof.KernelBlocks.lean ====
import proofs.«117152_j56118042689984_1_alg».proof.Proof.Gen.KernelIdeal.Frame
import proofs.«117152_j56118042689984_1_alg».proof.Proof.Payload
import proofs.«117152_j56118042689984_1_alg».proof.Proof.Spec
import proofs.«117152_j56118042689984_1_alg».proof.Proof.KernelArrays
import proofs.«117152_j56118042689984_1_alg».proof.Proof.KernelEmb
import proofs.«117152_j56118042689984_1_alg».proof.Proof.KernelBlkRead
import Idealize.ShloMosaic.Lib.Pipeline.Value
import Idealize.ShloMosaic.Lib.ValueIdx

/-!
  The kernel's output array after its 400 grid points, at the ideal values. Point `t` works on edges
  `4000 t … 4000 t + 3999`: it reads those rows of the two gathered feature arrays, of the edge features and of the
  normaliser column, the whole weight and the bias row, and writes those rows of the output. So the output array ends
  holding, at `(e, q)`, edge `e`'s message at column `q` computed from the arrays as the region finds them.
-/

set_option maxRecDepth 16384

noncomputable section

open scoped BigOperators

namespace Cert.KernelBlocks

open Idealize.ShloMosaic Idealize.ShloMosaic.TcCoe Idealize.ShloMosaic.ValueIdx Idealize.SL.Sem
open Cert.KernelIdeal Cert.KernelIdeal.Gen Cert.KernelArrays Cert.KernelEmb Cert.KernelBlkRead
open Idealize.ShloMosaic.Pipeline (Dat Cfg Window)

variable (m : (ℓ : Loc nD τ sig) → Buf (Elt Ideal) ℓ)

/-- A message depends only on its five ingredients. -/
theorem msg_congr {cat cat' ef ef' : Fin 128 → EReal} {W W' : (⟨2, ![128, 64]⟩ : Shape).Idx → EReal} {b b' cn cn' : EReal}
    (q : Fin 64) (h1 : cat = cat') (h2 : ef = ef') (h3 : W = W') (h4 : b = b') (h5 : cn = cn') :
    Cert.Spec.msg cat ef W b cn q = Cert.Spec.msg cat' ef' W' b' cn' q := by
  subst h1 h2 h3 h4 h5; rfl

/-- Two rows side by side depend only on the two rows. -/
theorem cat2_congr {a a' b b' : Fin 64 → EReal} (h1 : a = a') (h2 : b = b') : Cert.Spec.cat2 a b = Cert.Spec.cat2 a' b' := by
  subst h1 h2; rfl

/-- WHAT POINT `t` WRITES BACK is block `t` of the array of messages. -/
theorem flushed_eq (c : Dev nD) (t : Fin cfg0.N) :
    (dats m 0 c).flushed 6 t = ((cfg0.win 6).blk t).view.read (Elt Ideal) (msgs m c) := by
  show (cfg0.win 6).cut (grid0.coords t) ((dats m 0 c).after 6 t) = _
  rw [after0_6]
  unfold out0_6
  rw [View.canon_unit_zero hz]
  simp only [View.ld_unit_zero (S := S4000x64) hz, View.ld_unit_zero (S := S4000x128) hz, View.ld_unit_zero (S := S128x64) hz,
    View.ld_unit_zero (S := S1x64) hz, View.ld_unit_zero (S := S4000x1) hz]
  funext j
  obtain ⟨p, q, rfl⟩ : ∃ (p : Fin 4000) (q : Fin 64), j = ix2 p q := ⟨j 0, j 1, eq_ix2 j⟩
  unfold View.read
  refine Eq.trans ?_ (cast_eq _ _).symm
  refine Eq.trans ?_ (congrArg (msgs m c) (emb6 t p q)).symm
  refine (Cert.Payload.pay_apply (iblk m c 0 t) (iblk m c 1 t) (iblk m c 2 t) (iblk m c 4 t) (iblk m c 5 t) (iblk m c 3 t) p q).trans ?_
  show _ = msgAt m c (row t p) q
  unfold msgAt
  exact msg_congr q
    (cat2_congr (funext fun k => blk0_read m c t p k) (funext fun k => blk1_read m c t p k))
    (funext fun k => blk2_read m c t p k) (blk4_read m c t) (blk5_read m c t q) (blk3_read m c t p)

/-- An index of the output array is in point `t`'s block iff each coordinate is in the block's range on its axis. -/
theorem mem_blk (t : Fin cfg0.N) (i : S1600000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v40).slice (win0_6.rect t)).set ↔ _
  rw [View.set_slice_whole, Rect.mem_set_unit]
  exact Iff.rfl

/-- Every edge's row lies in the block of the point `e / 4000`. -/
theorem cover (i : S1600000x64.Idx) :
    ∃ t : Fin cfg0.N, (cfg0.win 6).flush t = true ∧ i ∈ ((cfg0.win 6).blk t).view.set := by
  have hi0 : (i 0).val < 1600000 := (i 0).isLt
  have hi1 : (i 1).val < 64 := (i 1).isLt
  have hN : cfg0.N = 400 := N_0
  let t : Fin cfg0.N := ⟨(i 0).val / 4000, by omega⟩
  obtain ⟨-, -, -, -, -, -, -, -, -, -, -, -, e0, e1⟩ := idx_facts t
  have ht : t.val = (i 0).val / 4000 := rfl
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 64 ≤ (i 1).val ∧ (i 1).val < win0_6.index t (1 : Fin 2) * 64 + 64; omega

/-- THE OUTPUT ARRAY after the region: every edge's message. -/
theorem final (c : Dev nD) : (dats m 0 c).arrAt 6 cfg0.N = msgs m c :=
  (dats m 0 c).arrAt_eq_of_cover 6 (msgs m c) (fun t _ => flushed_eq m c t) (cover)

end Cert.KernelBlocks

end
-- ==== Proof.KernelResult.lean ====
import proofs.«117152_j56118042689984_1_alg».proof.Proof.KernelArrays

/-!
  The kernel program's result as a term of its launch contents: the rows of the array of messages accumulated by
  destination into a zero `[100000, 64]` array, seen as `[100000, 1, 64]`.
-/

noncomputable section

namespace Cert.KernelResult

open Idealize.ShloMosaic Idealize.ShloMosaic.TcCoe Idealize.SL.Sem
open Cert.KernelIdeal Cert.KernelIdeal.Gen Cert.KernelArrays

variable (m : (ℓ : Loc nD τ sig) → Buf (Elt Ideal) ℓ)

/-- The program's result from the array of messages: rows accumulated by destination into zeros, then the `[100000, 1, 64]` view. -/
def result (c : Dev nD) : FVec Ideal S100000x1x64 .f32 :=
  shapeCast S100000x1x64
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 (m ((c : Thread nD τ).loc main_arg3)))
      (msgs m c))
    shapeCasts_S100000x64_S100000x1x64

end Cert.KernelResult

end
-- ==== Proof.KernelValue.lean ====
import proofs.«117152_j56118042689984_1_alg».proof.Proof.Gen.KernelIdeal.Frame
import proofs.«117152_j56118042689984_1_alg».proof.Proof.KernelBlocks
import proofs.«117152_j56118042689984_1_alg».proof.Proof.KernelResult
import Idealize.ShloMosaic.Lib.StableHlo.Run

/-!
  The kernel program's result, at the ideal values. After the region the program accumulates the rows of the array of
  messages into a zero `[100000, 64]` array by the (unwrapped) destination indices and views the sum as
  `[100000, 1, 64]`. Here the run of the whole program is re-posted with its result named as that term of the
  launch contents, the arguments unchanged.
-/

set_option maxRecDepth 16384

noncomputable section

namespace Cert.KernelValue

open Idealize.ShloMosaic Idealize.ShloMosaic.TcCoe Idealize.SL.Sem Idealize.ShloMosaic.StableHlo
open Cert.KernelIdeal Cert.KernelIdeal.Gen Cert.KernelArrays Cert.KernelBlocks Cert.KernelResult

variable (m : (ℓ : Loc nD τ sig) → Buf (Elt Ideal) ℓ) (ρ : Dev nD → PrngReg)

/-- What the lines after the region leave in the result buffer. -/
theorem tail_eq (c : Dev nD) :
    Pipeline.afterTail₀ cfgs (dats m) 0 (V0 m) [hostOps1] c main_v44 = result m c := by
  have h40 : Pipeline.withArrays (cfgs 0).spec c (V0 m c) (fun w => (dats m 0 c).arrAt w (cfgs 0).N) (Proc.devRef .tc main_v40)
      = msgs m c :=
    (Pipeline.withArrays_arr spec0 launch0.win.arr_inj c _ _ 6).trans (final m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v44) = _
  after_results
  rw [h40, h3]
  rfl

/-- THE KERNEL PROGRAM'S RUN, read: every weakly fair execution terminates with the result buffer at `result` and the
    six arguments as launched. -/
theorem run : θ_run defs (onTc (τ := τ) (main (F := Ideal))) ⟨m, fun _ => 0, ρ⟩ (fun r => ∀ c : Dev nD,
      r.2.mem ((c.tc : Thread nD τ).loc main_v44) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v44 (Pipeline.mem_restRefs_of main_v44 (by decide) (by decide))).trans (tail_eq m c),
      (((h c).2 main_arg0 (Pipeline.mem_restRefs_of main_arg0 (by decide) (by decide))).trans (W_main_arg0 m (dats m) c)),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main m ρ)

end Cert.KernelValue

end
-- ==== Proof.GatherRead.lean ====
import proofs.«117152_j56118042689984_1_alg».proof.KernelIdeal
import proofs.«117152_j56118042689984_1_alg».proof.ReferenceIdeal
import Idealize.ShloMosaic.Lib.ValueIdx

/-!
  The four row gathers of the two programs read at an index. Each takes whole rows of a node table at the node an edge's
  start index names (the word read signed, clamped into `[0, 99999]`): result row `e` is table row
  `min (idx[e, 0]).toInt.toNat 99999`, the other coordinates carried over.

  Each proof evaluates the operand index axis by axis. On axis 0 (collapsed, the one axis in the start index map) the
  batching and offset coordinates vanish and the start is the clamped start index, whose place in the start indices
  is `(e, 0)`: the result's one batch coordinate, and `0` on the index vector's axis. On an offset axis the start and the
  batching coordinate vanish and the offset coordinate is the result index's coordinate on the matching offset axis.
-/

noncomputable section

namespace Cert.GatherRead

open Idealize.ShloMosaic Idealize.ShloMosaic.ValueIdx

variable {α : Type}

local notation "dFlat" => Cert.KernelIdeal.gather_S100000_S1600000x1_S1600000_n_0_n_n_0_1_1
local notation "dRows2" => Cert.KernelIdeal.gather_S100000x64_S1600000x1_S1600000x64_1_0_n_n_0_1_164
local notation "dRows3" => Cert.ReferenceIdeal.gather_S100000x1x64_S1600000x1_S1600000x1x64_12_0_n_n_0_1_1164
local notation "dRows1" => Cert.ReferenceIdeal.gather_S100000x1x1_S1600000x1_S1600000x1x1_12_0_n_n_0_1_111

/-- A flat node table `[100000]` gathered at `[1600000, 1]` start indices: entry `e` is the table at the clamped node. -/
theorem gather_flat [Cert.KernelIdeal.Facts] (x : Cert.KernelIdeal.S100000.Idx → α) (idx : IVec Cert.KernelIdeal.S1600000x1 32)
    (e : Fin 1600000) :
    Host.gather Cert.KernelIdeal.gather_S100000_S1600000x1_S1600000_n_0_n_n_0_1_1 x idx (ix1 e)
      = x (ix1 (⟨min (idx (ix2 e (0 : Fin 1))).toInt.toNat 99999, by omega⟩ : Fin 100000)) := by
  unfold Host.gather
  congr 1
  funext a
  match a with
  | ⟨0, _⟩ =>
    refine Fin.ext ?_
    show GatherDims.start dFlat (ix1 e) idx 0 + GatherDims.batchCoord dFlat (ix1 e) 0
        + GatherDims.offCoord dFlat (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ GatherDims.startIndexMap dFlat from List.mem_singleton.mpr rfl)]
    -- the start index's one component is read at `(e, 0)`
    have hsi : GatherDims.siIdx dFlat (ix1 e) ⟨List.idxOf (0 : Fin 1) (GatherDims.startIndexMap dFlat),
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- A node table `[100000, 64]` gathered by rows: entry `(e, q)` is the table at `(clamped node, q)`. -/
theorem gather_rows2 [Cert.KernelIdeal.Facts] (x : Cert.KernelIdeal.S100000x64.Idx → α) (idx : IVec Cert.KernelIdeal.S1600000x1 32)
    (e : Fin 1600000) (q : Fin 64) :
    Host.gather Cert.KernelIdeal.gather_S100000x64_S1600000x1_S1600000x64_1_0_n_n_0_1_164 x idx (ix2 e q)
      = x (ix2 (⟨min (idx (ix2 e (0 : Fin 1))).toInt.toNat 99999, by omega⟩ : Fin 100000) q) := by
  unfold Host.gather
  congr 1
  funext a
  match a with
  | ⟨0, _⟩ =>
    refine Fin.ext ?_
    show GatherDims.start dRows2 (ix2 e q) idx 0 + GatherDims.batchCoord dRows2 (ix2 e q) 0
        + GatherDims.offCoord dRows2 (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap dRows2 from List.mem_singleton.mpr rfl)]
    have hsi : GatherDims.siIdx dRows2 (ix2 e q) ⟨List.idxOf (0 : Fin 2) (GatherDims.startIndexMap dRows2),
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show GatherDims.start dRows2 (ix2 e q) idx 1 + GatherDims.batchCoord dRows2 (ix2 e q) 1
        + GatherDims.offCoord dRows2 (ix2 e q) 1 = q.val
    have hm : (1 : Fin 2) ∉ GatherDims.startIndexMap dRows2 := by
      show (1 : Fin 2) ∉ [(0 : Fin 2)]; decide
    have hc : (1 : Fin 2) ∉ GatherDims.collapsedSliceDims dRows2 := by
      show (1 : Fin 2) ∉ [(0 : Fin 2)]; decide
    have hk : (1 : Fin 2) ∈ GatherDims.sKept dRows2 := (GatherDims.mem_sKept _ _).mpr ⟨hc, List.not_mem_nil⟩
    rw [GatherDims.batchCoord_eq_zero _ _ _ List.not_mem_nil]
    unfold GatherDims.start
    rw [dif_neg hm]
    unfold GatherDims.offCoord
    rw [dif_pos hk]
    simp only [Nat.zero_add]
    rfl

/-- A node table `[100000, 1, 64]` gathered by rows: entry `(e, 0, q)` is the table at `(clamped node, 0, q)`. -/
theorem gather_rows3 [Cert.ReferenceIdeal.Facts] (x : Cert.ReferenceIdeal.S100000x1x64.Idx → α)
    (idx : IVec Cert.ReferenceIdeal.S1600000x1 32) (e : Fin 1600000) (q : Fin 64) :
    Host.gather Cert.ReferenceIdeal.gather_S100000x1x64_S1600000x1_S1600000x1x64_12_0_n_n_0_1_1164 x idx (ix3 e (0 : Fin 1) q)
      = x (ix3 (⟨min (idx (ix2 e (0 : Fin 1))).toInt.toNat 99999, by omega⟩ : Fin 100000) (0 : Fin 1) q) := by
  unfold Host.gather
  congr 1
  funext a
  match a with
  | ⟨0, _⟩ =>
    refine Fin.ext ?_
    show GatherDims.start dRows3 (ix3 e (0 : Fin 1) q) idx 0 + GatherDims.batchCoord dRows3 (ix3 e (0 : Fin 1) q) 0
        + GatherDims.offCoord dRows3 (ix3 e (0 : Fin 1) q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ GatherDims.startIndexMap dRows3 from List.mem_singleton.mpr rfl)]
    have hsi : GatherDims.siIdx dRows3 (ix3 e (0 : Fin 1) q) ⟨List.idxOf (0 : Fin 3) (GatherDims.startIndexMap dRows3),
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show GatherDims.start dRows3 (ix3 e (0 : Fin 1) q) idx 1 + GatherDims.batchCoord dRows3 (ix3 e (0 : Fin 1) q) 1
        + GatherDims.offCoord dRows3 (ix3 e (0 : Fin 1) q) 1 = (0 : Fin 1).val
    have hm : (1 : Fin 3) ∉ GatherDims.startIndexMap dRows3 := by
      show (1 : Fin 3) ∉ [(0 : Fin 3)]; decide
    have hc : (1 : Fin 3) ∉ GatherDims.collapsedSliceDims dRows3 := by
      show (1 : Fin 3) ∉ [(0 : Fin 3)]; decide
    have hk : (1 : Fin 3) ∈ GatherDims.sKept dRows3 := (GatherDims.mem_sKept _ _).mpr ⟨hc, List.not_mem_nil⟩
    rw [GatherDims.batchCoord_eq_zero _ _ _ List.not_mem_nil]
    unfold GatherDims.start
    rw [dif_neg hm]
    unfold GatherDims.offCoord
    rw [dif_pos hk]
    simp only [Nat.zero_add]
    rfl
  | ⟨2, _⟩ =>
    refine Fin.ext ?_
    show GatherDims.start dRows3 (ix3 e (0 : Fin 1) q) idx 2 + GatherDims.batchCoord dRows3 (ix3 e (0 : Fin 1) q) 2
        + GatherDims.offCoord dRows3 (ix3 e (0 : Fin 1) q) 2 = q.val
    have hm : (2 : Fin 3) ∉ GatherDims.startIndexMap dRows3 := by
      show (2 : Fin 3) ∉ [(0 : Fin 3)]; decide
    have hc : (2 : Fin 3) ∉ GatherDims.collapsedSliceDims dRows3 := by
      show (2 : Fin 3) ∉ [(0 : Fin 3)]; decide
    have hk : (2 : Fin 3) ∈ GatherDims.sKept dRows3 := (GatherDims.mem_sKept _ _).mpr ⟨hc, List.not_mem_nil⟩
    rw [GatherDims.batchCoord_eq_zero _ _ _ List.not_mem_nil]
    unfold GatherDims.start
    rw [dif_neg hm]
    unfold GatherDims.offCoord
    rw [dif_pos hk]
    simp only [Nat.zero_add]
    rfl

/-- A node table `[100000, 1, 1]` gathered by rows: entry `(e, 0, 0)` is the table at `(clamped node, 0, 0)`. -/
theorem gather_rows1 [Cert.ReferenceIdeal.Facts] (x : Cert.ReferenceIdeal.S100000x1x1.Idx → α)
    (idx : IVec Cert.ReferenceIdeal.S1600000x1 32) (e : Fin 1600000) :
    Host.gather Cert.ReferenceIdeal.gather_S100000x1x1_S1600000x1_S1600000x1x1_12_0_n_n_0_1_111 x idx (ix3 e (0 : Fin 1) (0 : Fin 1))
      = x (ix3 (⟨min (idx (ix2 e (0 : Fin 1))).toInt.toNat 99999, by omega⟩ : Fin 100000) (0 : Fin 1) (0 : Fin 1)) := by
  unfold Host.gather
  congr 1
  funext a
  match a with
  | ⟨0, _⟩ =>
    refine Fin.ext ?_
    show GatherDims.start dRows1 (ix3 e (0 : Fin 1) (0 : Fin 1)) idx 0
        + GatherDims.batchCoord dRows1 (ix3 e (0 : Fin 1) (0 : Fin 1)) 0
        + GatherDims.offCoord dRows1 (ix3 e (0 : Fin 1) (0 : Fin 1)) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ GatherDims.startIndexMap dRows1 from List.mem_singleton.mpr rfl)]
    have hsi : GatherDims.siIdx dRows1 (ix3 e (0 : Fin 1) (0 : Fin 1))
        ⟨List.idxOf (0 : Fin 3) (GatherDims.startIndexMap dRows1),
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show GatherDims.start dRows1 (ix3 e (0 : Fin 1) (0 : Fin 1)) idx 1
        + GatherDims.batchCoord dRows1 (ix3 e (0 : Fin 1) (0 : Fin 1)) 1
        + GatherDims.offCoord dRows1 (ix3 e (0 : Fin 1) (0 : Fin 1)) 1 = (0 : Fin 1).val
    have hm : (1 : Fin 3) ∉ GatherDims.startIndexMap dRows1 := by
      show (1 : Fin 3) ∉ [(0 : Fin 3)]; decide
    have hc : (1 : Fin 3) ∉ GatherDims.collapsedSliceDims dRows1 := by
      show (1 : Fin 3) ∉ [(0 : Fin 3)]; decide
    have hk : (1 : Fin 3) ∈ GatherDims.sKept dRows1 := (GatherDims.mem_sKept _ _).mpr ⟨hc, List.not_mem_nil⟩
    rw [GatherDims.batchCoord_eq_zero _ _ _ List.not_mem_nil]
    unfold GatherDims.start
    rw [dif_neg hm]
    unfold GatherDims.offCoord
    rw [dif_pos hk]
    simp only [Nat.zero_add]
    rfl
  | ⟨2, _⟩ =>
    refine Fin.ext ?_
    show GatherDims.start dRows1 (ix3 e (0 : Fin 1) (0 : Fin 1)) idx 2
        + GatherDims.batchCoord dRows1 (ix3 e (0 : Fin 1) (0 : Fin 1)) 2
        + GatherDims.offCoord dRows1 (ix3 e (0 : Fin 1) (0 : Fin 1)) 2 = (0 : Fin 1).val
    have hm : (2 : Fin 3) ∉ GatherDims.startIndexMap dRows1 := by
      show (2 : Fin 3) ∉ [(0 : Fin 3)]; decide
    have hc : (2 : Fin 3) ∉ GatherDims.collapsedSliceDims dRows1 := by
      show (2 : Fin 3) ∉ [(0 : Fin 3)]; decide
    have hk : (2 : Fin 3) ∈ GatherDims.sKept dRows1 := (GatherDims.mem_sKept _ _).mpr ⟨hc, List.not_mem_nil⟩
    rw [GatherDims.batchCoord_eq_zero _ _ _ List.not_mem_nil]
    unfold GatherDims.start
    rw [dif_neg hm]
    unfold GatherDims.offCoord
    rw [dif_pos hk]
    simp only [Nat.zero_add]
    rfl

end Cert.GatherRead

end
-- ==== Proof.RefValue.lean ====
import proofs.«117152_j56118042689984_1_alg».proof.Proof.Gen.ReferenceIdeal.Read
import proofs.«117152_j56118042689984_1_alg».proof.Proof.GatherRead
import proofs.«117152_j56118042689984_1_alg».proof.Proof.Spec
import Idealize.ShloMosaic.Lib.Pipeline.Value
import Idealize.ShloMosaic.Lib.ValueIdx

/-!
  The reference's per-edge message read at an index, at the ideal values. The reference gathers the destination's and
  the source's feature rows, lays them side by side, adds the edge's own row, multiplies by the weight, adds the bias and
  scales by the product of the two nodes' normalisers, the scale written on the LEFT: the edge's message with its two
  factors exchanged, which on the extended reals is the same number.
-/

noncomputable section

open scoped BigOperators

namespace Cert.RefValue

open Idealize.ShloMosaic Idealize.ShloMosaic.ValueIdx Cert.ReferenceIdeal Cert.ReferenceIdeal.Gen Cert.ReferenceIdeal.Read

/-- The destination start indices as the reference gathers with them: negative words wrapped by the node count, as a column. -/
abbrev dstIdx (x3 : IVec S1600000 32) : IVec S1600000x1 32 := val_main_v14 (F := Ideal) x3
/-- The source start indices, likewise. -/
abbrev srcIdx (x2 : IVec S1600000 32) : IVec S1600000x1 32 := val_main_v21 (F := Ideal) x2
/-- The degree normaliser of every node: `max(deg, 1) ^ (-1/2)` with `deg` the count of edges that end at the node. -/
abbrev nrm (x3 : IVec S1600000 32) : FVec Ideal S100000 .f32 := val_main_v7 (F := Ideal) x3

/-- The normaliser gathered for an edge through the `[100000, 1, 1]` view of the table is the table's entry at the node. -/
theorem nrm_gather (x3 : IVec S1600000 32) (iv : IVec S1600000x1 32) (e : Fin 1600000) (i : S1600000x1x1.Idx)
    (hi : i = ix3 e (0 : Fin 1) (0 : Fin 1)) :
    Host.gather gather_S100000x1x1_S1600000x1_S1600000x1x1_12_0_n_n_0_1_111 (val_main_v8 (F := Ideal) x3) iv i
      = nrm x3 (ix1 (Cert.Spec.nodeOf iv e)) := by
  subst hi
  rw [Cert.GatherRead.gather_rows1, val_main_v8_apply]
  refine congrArg (val_main_v7 (F := Ideal) x3) ?_
  funext a
  match a with
  | ⟨0, _⟩ => rfl

/-- A feature row gathered for an edge is the node's row. -/
theorem feat_gather (x0 : FVec Ideal S100000x1x64 .f32) (iv : IVec S1600000x1 32) (e : Fin 1600000) (k : Fin 64) :
    Host.gather gather_S100000x1x64_S1600000x1_S1600000x1x64_12_0_n_n_0_1_1164 x0 iv (ix3 e (0 : Fin 1) k)
      = x0 (ix3 (Cert.Spec.nodeOf iv e) (0 : Fin 1) k) :=
  Cert.GatherRead.gather_rows3 x0 iv e k

/-- The two gathered rows side by side, at position `k` of edge `e`. -/
theorem cat_read (x0 : FVec Ideal S100000x1x64 .f32) (x2 x3 : IVec S1600000 32) (e : Fin 1600000) (k : Fin 128) :
    val_main_v23 (F := Ideal) x0 x2 x3 (ix3 e (0 : Fin 1) k)
      = Cert.Spec.cat2 (fun k => x0 (ix3 (Cert.Spec.nodeOf (dstIdx x3) e) (0 : Fin 1) k))
          (fun k => x0 (ix3 (Cert.Spec.nodeOf (srcIdx x2) e) (0 : Fin 1) k)) k := by
  unfold val_main_v23 Cert.Spec.cat2
  by_cases hk : k.val < 64
  · rw [dif_pos hk]
    refine (concatenate_pair_apply_left (s₁ := S1600000x1x64) (s₂ := S1600000x1x64) 2 (val_main_v15 (F := Ideal) x0 x3) (val_main_v22 (F := Ideal) x0 x2)
      concatenates_S1600000x1x64_S1600000x1x64_S1600000x1x128_d2 (ix3 e (0 : Fin 1) k) rfl (ix3 e (0 : Fin 1) (⟨k.val, hk⟩ : Fin 64)) fun ax => ?_).trans ?_
    · match ax with
      | ⟨0, _⟩ => rfl
      | ⟨1, _⟩ => rfl
      | ⟨2, _⟩ => rfl
    · exact feat_gather x0 _ e ⟨k.val, hk⟩
  · rw [dif_neg hk]
    refine (concatenate_pair_apply_right (s₁ := S1600000x1x64) (s₂ := S1600000x1x64) 2 (val_main_v15 (F := Ideal) x0 x3) (val_main_v22 (F := Ideal) x0 x2)
      concatenates_S1600000x1x64_S1600000x1x64_S1600000x1x128_d2 (ix3 e (0 : Fin 1) k) rfl rfl (ix3 e (0 : Fin 1) (⟨k.val - 64, by omega⟩ : Fin 64))
      (fun ax hax => ?_) ?_).trans ?_
    · match ax with
      | ⟨0, _⟩ => rfl
      | ⟨1, _⟩ => rfl
      | ⟨2, _⟩ => exact absurd rfl hax
    · show (k.val - 64) + 64 = k.val
      omega
    · exact feat_gather x0 _ e ⟨k.val - 64, by omega⟩

/-- THE REFERENCE'S MESSAGE of edge `e` at column `q`. -/
theorem ref_msg (x0 : FVec Ideal S100000x1x64 .f32) (x1 : FVec Ideal S1600000x128 .f32) (x2 x3 : IVec S1600000 32)
    (x4 : FVec Ideal S128x64 .f32) (x5 : FVec Ideal S64 .f32) (e : Fin 1600000) (q : Fin 64) :
    val_main_v46 (F := Ideal) x0 x1 x2 x3 x4 x5 (ix3 e (0 : Fin 1) q)
      = Cert.Spec.msg
          (Cert.Spec.cat2 (fun k => x0 (ix3 (Cert.Spec.nodeOf (dstIdx x3) e) (0 : Fin 1) k))
            (fun k => x0 (ix3 (Cert.Spec.nodeOf (srcIdx x2) e) (0 : Fin 1) k)))
          (fun k => x1 (ix2 e k)) x4 (x5 (ix1 q))
          (nrm x3 (ix1 (Cert.Spec.nodeOf (srcIdx x2) e)) * nrm x3 (ix1 (Cert.Spec.nodeOf (dstIdx x3) e))) q := by
  rw [val_main_v46_apply, val_main_v45_apply, val_main_v44_apply, val_main_v29_apply, val_main_v26_apply,
    val_main_v28_apply, val_main_v27_apply]
  unfold Cert.Spec.msg
  show (_ * _) * (_ + _) = _
  rw [mul_comm]
  refine congrArg₂ (· * ·) (congrArg₂ (· + ·) (Finset.sum_congr rfl fun k _ => ?_) ?_) (congrArg₂ (· * ·) ?_ ?_)
  · -- one term of the contraction
    rw [val_main_v25_apply, val_main_v24_apply]
    refine congrArg₂ (· * ·) (congrArg₂ (· + ·) ?_ ?_) ?_
    · have hl : lidx_main_v26 (ix3 e (0 : Fin 1) q) k = ix3 e (0 : Fin 1) k := by
        funext a
        match a with
        | ⟨0, _⟩ => rfl
        | ⟨1, _⟩ => rfl
        | ⟨2, _⟩ => rfl
      rw [hl]
      exact cat_read x0 x2 x3 e k
    · refine congrArg x1 ?_
      funext a
      match a with
      | ⟨0, _⟩ => rfl
      | ⟨1, _⟩ => rfl
    · refine congrArg x4 ?_
      funext a
      match a with
      | ⟨0, _⟩ => rfl
      | ⟨1, _⟩ => rfl
  · -- the bias
    refine congrArg x5 ?_
    funext a
    match a with
    | ⟨0, _⟩ => rfl
  · -- the source's normaliser
    exact nrm_gather x3 _ e _ (by funext a; match a with | ⟨0, _⟩ => rfl | ⟨1, _⟩ => rfl | ⟨2, _⟩ => rfl)
  · -- the destination's normaliser
    exact nrm_gather x3 _ e _ (by funext a; match a with | ⟨0, _⟩ => rfl | ⟨1, _⟩ => rfl | ⟨2, _⟩ => rfl)

end Cert.RefValue

end
-- ==== Proof.HostTerms.lean ====
import proofs.«117152_j56118042689984_1_alg».proof.Proof.Gen.KernelIdeal
import Idealize.ShloMosaic.PureOps.Ideal

/-!
  The host-side terms the kernel's program computes before its region, named once: the start indices with negative
  words wrapped by the node count and laid out as a column, and the nodes' degree normaliser.
-/

noncomputable section

namespace Cert.HostTerms

open Idealize.ShloMosaic Cert.KernelIdeal Cert.KernelIdeal.Gen

/-- Start indices as the gathers take them: a negative word has the node count added, and the vector becomes a column. -/
abbrev wrapIdx (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- The degree normaliser of every node: the count of edges ending at the node (ones accumulated by destination),
    raised to at least one, to the power `-1/2`. -/
abbrev nrm (x3 : IVec S1600000 32) : FVec Ideal S100000 .f32 :=
  Host.powf
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 x3)
        (broadcastInDim S1600000 ![] bcast_S_S1600000 (constant S_ .f32 0x3F800000#32)))
      (broadcastInDim S100000 ![] bcast_S_S100000 (constant S_ .f32 0x3F800000#32)))
    (broadcastInDim S100000 ![] bcast_S_S100000 (constant S_ .f32 0xBF000000#32))

end Cert.HostTerms

end
-- ==== Proof.HostPreDst.lean ====
import proofs.«117152_j56118042689984_1_alg».proof.Proof.Gen.KernelIdeal.Frame
import proofs.«117152_j56118042689984_1_alg».proof.Proof.HostTerms
import Idealize.ShloMosaic.Lib.StableHlo.Run

/-! The destinations' feature rows as the region finds them: the node features, seen as `[100000, 64]`, gathered by rows at the wrapped destination indices. -/

noncomputable section

namespace Cert.HostPre

open Idealize.ShloMosaic Idealize.ShloMosaic.TcCoe Idealize.SL.Sem Idealize.ShloMosaic.StableHlo
open Cert.KernelIdeal Cert.KernelIdeal.Gen Cert.HostTerms

variable (m : (ℓ : Loc nD τ sig) → Buf (Elt Ideal) ℓ)

set_option maxHeartbeats 4000000 in
theorem dst_eq (c : Dev nD) :
    (V m c main_v31 : FVec Ideal S1600000x64 .f32) = Host.gather gather_S100000x64_S1600000x1_S1600000x64_1_0_n_n_0_1_164
        (shapeCast S100000x64 (m ((c : Thread nD τ).loc main_arg0)) shapeCasts_S100000x1x64_S100000x64) (wrapIdx (m ((c : Thread nD τ).loc main_arg3))) := by
  dsimp only [V, V0]
  simp only [List.flatten_cons, List.flatten_nil, List.append_nil]
  after_results
  rfl

end Cert.HostPre

end
-- ==== Proof.HostPreSrc.lean ====
import proofs.«117152_j56118042689984_1_alg».proof.Proof.Gen.KernelIdeal.Frame
import proofs.«117152_j56118042689984_1_alg».proof.Proof.HostTerms
import Idealize.ShloMosaic.Lib.StableHlo.Run

/-! The sources' feature rows as the region finds them: the node features, seen as `[100000, 64]`, gathered by rows at the wrapped source indices. -/

noncomputable section

namespace Cert.HostPre

open Idealize.ShloMosaic Idealize.ShloMosaic.TcCoe Idealize.SL.Sem Idealize.ShloMosaic.StableHlo
open Cert.KernelIdeal Cert.KernelIdeal.Gen Cert.HostTerms

variable (m : (ℓ : Loc nD τ sig) → Buf (Elt Ideal) ℓ)

set_option maxHeartbeats 4000000 in
theorem src_eq (c : Dev nD) :
    (V m c main_v38 : FVec Ideal S1600000x64 .f32) = Host.gather gather_S100000x64_S1600000x1_S1600000x64_1_0_n_n_0_1_164
        (shapeCast S100000x64 (m ((c : Thread nD τ).loc main_arg0)) shapeCasts_S100000x1x64_S100000x64) (wrapIdx (m ((c : Thread nD τ).loc main_arg2))) := by
  dsimp only [V, V0]
  simp only [List.flatten_cons, List.flatten_nil, List.append_nil]
  after_results
  rfl

end Cert.HostPre

end
-- ==== Proof.HostPreCn.lean ====
import proofs.«117152_j56118042689984_1_alg».proof.Proof.Gen.KernelIdeal.Frame
import proofs.«117152_j56118042689984_1_alg».proof.Proof.HostTerms
import Idealize.ShloMosaic.Lib.StableHlo.Run

/-! The edges' normaliser column as the region finds it: the source's normaliser times the destination's, as a column. -/

noncomputable section

namespace Cert.HostPre

open Idealize.ShloMosaic Idealize.ShloMosaic.TcCoe Idealize.SL.Sem Idealize.ShloMosaic.StableHlo
open Cert.KernelIdeal Cert.KernelIdeal.Gen Cert.HostTerms

variable (m : (ℓ : Loc nD τ sig) → Buf (Elt Ideal) ℓ)

set_option maxHeartbeats 4000000 in
theorem cn_eq (c : Dev nD) :
    (V m c main_v23 : FVec Ideal S1600000x1 .f32) = shapeCast S1600000x1 (mulf (Host.gather gather_S100000_S1600000x1_S1600000_n_0_n_n_0_1_1 (nrm (m ((c : Thread nD τ).loc main_arg3))) (wrapIdx (m ((c : Thread nD τ).loc main_arg2))))
        (Host.gather gather_S100000_S1600000x1_S1600000_n_0_n_n_0_1_1 (nrm (m ((c : Thread nD τ).loc main_arg3))) (wrapIdx (m ((c : Thread nD τ).loc main_arg3))))) shapeCasts_S1600000_S1600000x1 := by
  dsimp only [V, V0]
  simp only [List.flatten_cons, List.flatten_nil, List.append_nil]
  after_results
  rfl

end Cert.HostPre

end
-- ==== Proof.HostPreB.lean ====
import proofs.«117152_j56118042689984_1_alg».proof.Proof.Gen.KernelIdeal.Frame
import proofs.«117152_j56118042689984_1_alg».proof.Proof.HostTerms
import Idealize.ShloMosaic.Lib.StableHlo.Run

/-! The bias as the region finds it: the bias vector seen as one row. -/

noncomputable section

namespace Cert.HostPre

open Idealize.ShloMosaic Idealize.ShloMosaic.TcCoe Idealize.SL.Sem Idealize.ShloMosaic.StableHlo
open Cert.KernelIdeal Cert.KernelIdeal.Gen Cert.HostTerms

variable (m : (ℓ : Loc nD τ sig) → Buf (Elt Ideal) ℓ)

set_option maxHeartbeats 4000000 in
theorem b_eq (c : Dev nD) :
    (V m c main_v39 : FVec Ideal S1x64 .f32) = shapeCast S1x64 (m ((c : Thread nD τ).loc main_arg5)) shapeCasts_S64_S1x64 := by
  dsimp only [V, V0]
  simp only [List.flatten_cons, List.flatten_nil, List.append_nil]
  after_results
  rfl

end Cert.HostPre

end
-- ==== Proof.LibViews.lean ====
import Idealize.ShloMosaic.Lib.Pipeline.Value
import Idealize.ShloMosaic.Lib.ValueIdx

/-!
  A reshape that inserts or removes a unit axis, read at an index: the row-major position of `(a, 0, b)` in
  `[m, 1, n]` is that of `(a, b)` in `[m, n]`, and the position of `(a, 0)` in `[m, 1]` is `a`.
-/

noncomputable section

namespace Cert.Lib.Views

open Idealize.ShloMosaic Idealize.ShloMosaic.ValueIdx

variable {α : Type}

/-- `[m, 1, n]` seen as `[m, n]`: entry `(a, b)` is the operand's `(a, 0, b)`. -/
theorem shapeCast_a1b_ab_apply {m n : ℕ} (x : (⟨3, ![m, 1, n]⟩ : Shape).Idx → α)
    (h : (⟨3, ![m, 1, n]⟩ : Shape).ShapeCasts ⟨2, ![m, n]⟩) (a : Fin m) (b : Fin n) :
    shapeCast ⟨2, ![m, n]⟩ x h (ix2 a b) = x (ix3 a (0 : Fin 1) b) :=
  shapeCast_apply x h _ _ (by
    rw [Shape.rowMajor_val_three, Shape.rowMajor_val_two]
    show (a.val * 1 + 0) * n + b.val = a.val * n + b.val
    rw [Nat.mul_one, Nat.add_zero])

/-- `[m, n]` seen as `[m, 1, n]`: entry `(a, 0, b)` is the operand's `(a, b)`. -/
theorem shapeCast_ab_a1b_apply {m n : ℕ} (x : (⟨2, ![m, n]⟩ : Shape).Idx → α)
    (h : (⟨2, ![m, n]⟩ : Shape).ShapeCasts ⟨3, ![m, 1, n]⟩) (a : Fin m) (b : Fin n) :
    shapeCast ⟨3, ![m, 1, n]⟩ x h (ix3 a (0 : Fin 1) b) = x (ix2 a b) :=
  shapeCast_apply x h _ _ (by
    rw [Shape.rowMajor_val_three, Shape.rowMajor_val_two]
    show a.val * n + b.val = (a.val * 1 + 0) * n + b.val
    rw [Nat.mul_one, Nat.add_zero])

/-- `[m]` seen as a column `[m, 1]`: entry `(a, 0)` is the operand's `a`. -/
theorem shapeCast_a_a1_apply {m : ℕ} (x : (⟨1, ![m]⟩ : Shape).Idx → α)
    (h : (⟨1, ![m]⟩ : Shape).ShapeCasts ⟨2, ![m, 1]⟩) (a : Fin m) :
    shapeCast ⟨2, ![m, 1]⟩ x h (ix2 a (0 : Fin 1)) = x (ix1 a) :=
  shapeCast_apply x h _ _ (by
    rw [Shape.rowMajor_val_two, Shape.rowMajor_val_one]
    show a.val = a.val * 1 + 0
    rw [Nat.mul_one, Nat.add_zero])

end Cert.Lib.Views

end
-- ==== Proof.KernelMsg.lean ====
import proofs.«117152_j56118042689984_1_alg».proof.Proof.KernelArrays
import proofs.«117152_j56118042689984_1_alg».proof.Proof.HostPreDst
import proofs.«117152_j56118042689984_1_alg».proof.Proof.HostPreSrc
import proofs.«117152_j56118042689984_1_alg».proof.Proof.HostPreCn
import proofs.«117152_j56118042689984_1_alg».proof.Proof.HostPreB
import proofs.«117152_j56118042689984_1_alg».proof.Proof.GatherRead
import proofs.«117152_j56118042689984_1_alg».proof.Proof.LibViews
import Idealize.ShloMosaic.Lib.ValueLayout

/-!
  The array of messages read through the host lines before the region: each array the region reads is a term of the
  program's arguments (a gather of node rows at the wrapped start indices, the product of two gathered normalisers, a
  view of the bias), so edge `e`'s message at column `q` is the message of the launch contents.
-/

noncomputable section

open scoped BigOperators

namespace Cert.KernelMsg

open Idealize.ShloMosaic Idealize.ShloMosaic.TcCoe Idealize.ShloMosaic.ValueIdx Idealize.SL.Sem
open Cert.KernelIdeal Cert.KernelIdeal.Gen Cert.KernelArrays Cert.HostTerms

variable (m : (ℓ : Loc nD τ sig) → Buf (Elt Ideal) ℓ)

/-- The six arguments as launched, each at its literal shape. -/
abbrev x0 (c : Dev nD) : FVec Ideal S100000x1x64 .f32 := m ((c : Thread nD τ).loc main_arg0)
abbrev x1 (c : Dev nD) : FVec Ideal S1600000x128 .f32 := m ((c : Thread nD τ).loc main_arg1)
abbrev x2 (c : Dev nD) : IVec S1600000 32 := m ((c : Thread nD τ).loc main_arg2)
abbrev x3 (c : Dev nD) : IVec S1600000 32 := m ((c : Thread nD τ).loc main_arg3)
abbrev x4 (c : Dev nD) : FVec Ideal S128x64 .f32 := m ((c : Thread nD τ).loc main_arg4)
abbrev x5 (c : Dev nD) : FVec Ideal S64 .f32 := m ((c : Thread nD τ).loc main_arg5)

/-- The destination's feature row of edge `e`. -/
theorem dst_read (c : Dev nD) (e : Fin 1600000) (k : Fin 64) :
    aDst m c (ix2 e k) = x0 m c (ix3 (Cert.Spec.nodeOf (wrapIdx (x3 m c)) e) (0 : Fin 1) k) := by
  refine (congrFun (Cert.HostPre.dst_eq m c) (ix2 e k)).trans ?_
  rw [Cert.GatherRead.gather_rows2]
  exact Cert.Lib.Views.shapeCast_a1b_ab_apply _ _ _ k

/-- The source's feature row of edge `e`. -/
theorem src_read (c : Dev nD) (e : Fin 1600000) (k : Fin 64) :
    aSrc m c (ix2 e k) = x0 m c (ix3 (Cert.Spec.nodeOf (wrapIdx (x2 m c)) e) (0 : Fin 1) k) := by
  refine (congrFun (Cert.HostPre.src_eq m c) (ix2 e k)).trans ?_
  rw [Cert.GatherRead.gather_rows2]
  exact Cert.Lib.Views.shapeCast_a1b_ab_apply _ _ _ k

/-- The normaliser of edge `e`: its source's times its destination's. -/
theorem cn_read (c : Dev nD) (e : Fin 1600000) :
    aCn m c (ix2 e (0 : Fin 1))
      = nrm (x3 m c) (ix1 (Cert.Spec.nodeOf (wrapIdx (x2 m c)) e)) * nrm (x3 m c) (ix1 (Cert.Spec.nodeOf (wrapIdx (x3 m c)) e)) := by
  refine (congrFun (Cert.HostPre.cn_eq m c) (ix2 e (0 : Fin 1))).trans ?_
  refine (Cert.Lib.Views.shapeCast_a_a1_apply _ _ e).trans ?_
  refine (mulf_apply _ _ _).trans ?_
  rw [Cert.GatherRead.gather_flat, Cert.GatherRead.gather_flat]
  rfl

/-- The bias at column `q`. -/
theorem b_read (c : Dev nD) (q : Fin 64) : aB m c (ix2 (0 : Fin 1) q) = x5 m c (ix1 q) :=
  (congrFun (Cert.HostPre.b_eq m c) (ix2 (0 : Fin 1) q)).trans (shapeCast_a_1a_apply _ _ (0 : Fin 1) q)

/-- THE KERNEL'S MESSAGE of edge `e` at column `q`, from the launch contents. -/
theorem msgs_read (c : Dev nD) (e : Fin 1600000) (q : Fin 64) :
    msgs m c (ix2 e q)
      = Cert.Spec.msg
          (Cert.Spec.cat2 (fun k => x0 m c (ix3 (Cert.Spec.nodeOf (wrapIdx (x3 m c)) e) (0 : Fin 1) k))
            (fun k => x0 m c (ix3 (Cert.Spec.nodeOf (wrapIdx (x2 m c)) e) (0 : Fin 1) k)))
          (fun k => x1 m c (ix2 e k)) (x4 m c) (x5 m c (ix1 q))
          (nrm (x3 m c) (ix1 (Cert.Spec.nodeOf (wrapIdx (x2 m c)) e)) * nrm (x3 m c) (ix1 (Cert.Spec.nodeOf (wrapIdx (x3 m c)) e))) q := by
  show msgAt m c e q = _
  unfold msgAt
  rw [cn_read, b_read, show aEf m c = x1 m c from V_main_arg1 m c, show aW m c = x4 m c from V_main_arg4 m c,
    show (fun k : Fin 64 => aDst m c (ix2 e k))
        = (fun k : Fin 64 => x0 m c (ix3 (Cert.Spec.nodeOf (wrapIdx (x3 m c)) e) (0 : Fin 1) k)) from
      funext fun k => dst_read m c e k,
    show (fun k : Fin 64 => aSrc m c (ix2 e k))
        = (fun k : Fin 64 => x0 m c (ix3 (Cert.Spec.nodeOf (wrapIdx (x2 m c)) e) (0 : Fin 1) k)) from
      funext fun k => src_read m c e k]

end Cert.KernelMsg

end
-- ==== Proof.ScatterRead.lean ====
import proofs.«117152_j56118042689984_1_alg».proof.KernelIdeal
import proofs.«117152_j56118042689984_1_alg».proof.ReferenceIdeal
import Idealize.ShloMosaic.PureOps.Ideal
import Idealize.ShloMosaic.Lib.ValueIdx

/-!
  The two accumulating row scatters of the two programs read at an index, at the ideal values. Update row `e` lands on
  the operand row its start index `idx[e, 0]` names (read signed, NOT clamped; a row outside the operand is dropped), so
  the result at row `n`, column `q` is the operand there plus the sum, over the edges `e` whose start index is `n`, of
  the update at `(e, q)`.
-/

noncomputable section

open scoped BigOperators

namespace Cert.ScatterRead

open Idealize.ShloMosaic Idealize.ShloMosaic.ValueIdx

/-! ## Where a scatter's update lands, for any dimension numbers -/

section General

/-- An update index `j` lands on the operand index `i` exactly when, on every operand axis, the start index (read
    signed, not clamped) plus the window coordinate is `i`'s coordinate: the bounds the landing asks for are the
    bounds `i`'s coordinates have. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hh a
      have hi := Option.some.inj hh
      have h1 := h a
      rw [← hi]
      simp only
      omega
    · intro hh
      congr 1
      funext a
      apply Fin.ext
      have h1 := hh a
      simp only
      omega
  · rename_i h
    constructor
    · intro hh
      cases hh
    · intro hh
      exfalso
      apply h
      intro a
      have h1 := hh a
      have h2 := (i a).isLt
      omega

end General

/-! ## Rows `[1600000, 64]` into `[100000, 64]` -/

section Rows2

variable [Cert.KernelIdeal.Facts]

local notation "d2" => Cert.KernelIdeal.scatter_S100000x64_S1600000x1_S1600000x64_1_0_0_1

/-- On the row axis the start is the edge's start index, read signed. -/
private theorem start2_0 (j : Cert.KernelIdeal.S1600000x64.Idx) (idx : IVec Cert.KernelIdeal.S1600000x1 32) :
    (d2).start j idx (0 : Fin 2) = (idx (ix2 (j 0 : Fin 1600000) (0 : Fin 1))).toInt := by
  unfold ScatterDims.start
  rw [dif_pos (show (0 : Fin 2) ∈ (d2).scatterDimsToOperandDims from List.mem_singleton.mpr rfl)]
  have hsi : (d2).siIdx j ⟨List.idxOf (0 : Fin 2) (d2).scatterDimsToOperandDims,
      List.idxOf_lt_length_iff.2 (List.mem_singleton.mpr rfl)⟩ = ix2 (j 0 : Fin 1600000) (0 : Fin 1) := by
    funext b; refine Fin.ext ?_
    match b with
    | ⟨0, _⟩ => rfl
    | ⟨1, _⟩ => rfl
  rw [hsi]
  rfl

/-- On the column axis the start is `0`: the map does not name it. -/
private theorem start2_1 (j : Cert.KernelIdeal.S1600000x64.Idx) (idx : IVec Cert.KernelIdeal.S1600000x1 32) :
    (d2).start j idx (1 : Fin 2) = 0 := rfl

/-- The row axis is inserted: window coordinate `0`. -/
private theorem window2_0 (j : Cert.KernelIdeal.S1600000x64.Idx) : (d2).window j (0 : Fin 2) = 0 := rfl

/-- On the column axis the window coordinate is the update's column. -/
private theorem window2_1 (j : Cert.KernelIdeal.S1600000x64.Idx) : (d2).window j (1 : Fin 2) = (j 1).val := rfl

/-- An update `(e, c)` lands on `(n, q)` exactly when edge `e`'s start index is `n` and `c = q`. -/
private theorem resultIdx2_iff (idx : IVec Cert.KernelIdeal.S1600000x1 32) (j : Cert.KernelIdeal.S1600000x64.Idx)
    (n : Fin 100000) (q : Fin 64) :
    (d2).resultIdx? j idx = some (ix2 n q) ↔
      (idx (ix2 (j 0 : Fin 1600000) (0 : Fin 1))).toInt = (n.val : Int) ∧ (j 1 : Fin 64) = q := by
  rw [resultIdx?_eq_some_iff]
  constructor
  · intro h
    have h0 := h (0 : Fin 2)
    have h1 := h (1 : Fin 2)
    rw [start2_0, window2_0] at h0
    rw [start2_1, window2_1] at h1
    refine ⟨?_, Fin.ext ?_⟩
    · have : ((ix2 n q (0 : Fin 2)).val : Int) = (n.val : Int) := rfl
      rw [this] at h0
      simpa using h0
    · have : ((ix2 n q (1 : Fin 2)).val : Int) = (q.val : Int) := rfl
      rw [this] at h1
      omega
  · rintro ⟨h0, h1⟩ a
    match a with
    | ⟨0, _⟩ =>
      show (d2).start j idx (0 : Fin 2) + ((d2).window j (0 : Fin 2) : Int) = (n.val : Int)
      rw [start2_0, window2_0, h0]; simp
    | ⟨1, _⟩ =>
      show (d2).start j idx (1 : Fin 2) + ((d2).window j (1 : Fin 2) : Int) = (q.val : Int)
      rw [start2_1, window2_1, ← h1]; simp

end Rows2

/-- Rows `[1600000, 64]` accumulated into `[100000, 64]`. -/
theorem scatterAdd_rows2 [Cert.KernelIdeal.Facts] (x : FVec Ideal Cert.KernelIdeal.S100000x64 .f32)
    (idx : IVec Cert.KernelIdeal.S1600000x1 32) (upd : FVec Ideal Cert.KernelIdeal.S1600000x64 .f32) (n : Fin 100000) (q : Fin 64) :
    Host.scatterAdd (F := Ideal) Cert.KernelIdeal.scatter_S100000x64_S1600000x1_S1600000x64_1_0_0_1 x idx upd (ix2 n q)
      = x (ix2 n q) + ∑ e ∈ Finset.univ.filter (fun e : Fin 1600000 => (idx (ix2 e (0 : Fin 1))).toInt = (n.val : Int)),
          upd (ix2 e q) := by
  show x (ix2 n q) + _ = _
  refine congrArg (x (ix2 n q) + ·) ?_
  refine Finset.sum_nbij' (fun j => (j 0 : Fin 1600000)) (fun e => ix2 e q) ?_ ?_ ?_ ?_ ?_
  · intro j hj
    exact Finset.mem_filter.mpr ⟨Finset.mem_univ _, ((resultIdx2_iff idx j n q).mp (Finset.mem_filter.mp hj).2).1⟩
  · intro e he
    exact Finset.mem_filter.mpr
      ⟨Finset.mem_univ _, (resultIdx2_iff idx (ix2 e q) n q).mpr ⟨(Finset.mem_filter.mp he).2, rfl⟩⟩
  · intro j hj
    have hq := ((resultIdx2_iff idx j n q).mp (Finset.mem_filter.mp hj).2).2
    subst hq
    exact (eq_ix2 j).symm
  · intro e _
    rfl
  · intro j hj
    have hq := ((resultIdx2_iff idx j n q).mp (Finset.mem_filter.mp hj).2).2
    subst hq
    exact congrArg upd (eq_ix2 j)

/-! ## Rows `[1600000, 1, 64]` into `[100000, 1, 64]` -/

section Rows3

variable [Cert.ReferenceIdeal.Facts]

local notation "d3" => Cert.ReferenceIdeal.scatter_S100000x1x64_S1600000x1_S1600000x1x64_12_0_0_1

/-- On the row axis the start is the edge's start index, read signed. -/
private theorem start3_0 (j : Cert.ReferenceIdeal.S1600000x1x64.Idx) (idx : IVec Cert.ReferenceIdeal.S1600000x1 32) :
    (d3).start j idx (0 : Fin 3) = (idx (ix2 (j 0 : Fin 1600000) (0 : Fin 1))).toInt := by
  unfold ScatterDims.start
  rw [dif_pos (show (0 : Fin 3) ∈ (d3).scatterDimsToOperandDims from List.mem_singleton.mpr rfl)]
  have hsi : (d3).siIdx j ⟨List.idxOf (0 : Fin 3) (d3).scatterDimsToOperandDims,
      List.idxOf_lt_length_iff.2 (List.mem_singleton.mpr rfl)⟩ = ix2 (j 0 : Fin 1600000) (0 : Fin 1) := by
    funext b; refine Fin.ext ?_
    match b with
    | ⟨0, _⟩ => rfl
    | ⟨1, _⟩ => rfl
  rw [hsi]
  rfl

/-- On the two window axes the start is `0`: the map does not name them. -/
private theorem start3_1 (j : Cert.ReferenceIdeal.S1600000x1x64.Idx) (idx : IVec Cert.ReferenceIdeal.S1600000x1 32) :
    (d3).start j idx (1 : Fin 3) = 0 := rfl
private theorem start3_2 (j : Cert.ReferenceIdeal.S1600000x1x64.Idx) (idx : IVec Cert.ReferenceIdeal.S1600000x1 32) :
    (d3).start j idx (2 : Fin 3) = 0 := rfl

/-- The row axis is inserted: window coordinate `0`. -/
private theorem window3_0 (j : Cert.ReferenceIdeal.S1600000x1x64.Idx) : (d3).window j (0 : Fin 3) = 0 := rfl

/-- On the two window axes the window coordinate is the update's coordinate there. -/
private theorem window3_1 (j : Cert.ReferenceIdeal.S1600000x1x64.Idx) : (d3).window j (1 : Fin 3) = (j 1).val := rfl
private theorem window3_2 (j : Cert.ReferenceIdeal.S1600000x1x64.Idx) : (d3).window j (2 : Fin 3) = (j 2).val := rfl

/-- An update `(e, 0, c)` lands on `(n, 0, q)` exactly when edge `e`'s start index is `n` and `c = q`. -/
private theorem resultIdx3_iff (idx : IVec Cert.ReferenceIdeal.S1600000x1 32) (j : Cert.ReferenceIdeal.S1600000x1x64.Idx)
    (n : Fin 100000) (q : Fin 64) :
    (d3).resultIdx? j idx = some (ix3 n (0 : Fin 1) q) ↔
      (idx (ix2 (j 0 : Fin 1600000) (0 : Fin 1))).toInt = (n.val : Int) ∧ (j 2 : Fin 64) = q := by
  rw [resultIdx?_eq_some_iff]
  constructor
  · intro h
    have h0 := h (0 : Fin 3)
    have h2 := h (2 : Fin 3)
    rw [start3_0, window3_0] at h0
    rw [start3_2, window3_2] at h2
    refine ⟨?_, Fin.ext ?_⟩
    · have : ((ix3 n (0 : Fin 1) q (0 : Fin 3)).val : Int) = (n.val : Int) := rfl
      rw [this] at h0
      simpa using h0
    · have : ((ix3 n (0 : Fin 1) q (2 : Fin 3)).val : Int) = (q.val : Int) := rfl
      rw [this] at h2
      omega
  · rintro ⟨h0, h2⟩ a
    match a with
    | ⟨0, _⟩ =>
      show (d3).start j idx (0 : Fin 3) + ((d3).window j (0 : Fin 3) : Int) = (n.val : Int)
      rw [start3_0, window3_0, h0]; simp
    | ⟨1, _⟩ =>
      show (d3).start j idx (1 : Fin 3) + ((d3).window j (1 : Fin 3) : Int) = (((0 : Fin 1)).val : Int)
      rw [start3_1, window3_1]
      have : (j 1).val < 1 := (j 1).isLt
      simp only [Fin.val_zero]
      omega
    | ⟨2, _⟩ =>
      show (d3).start j idx (2 : Fin 3) + ((d3).window j (2 : Fin 3) : Int) = (q.val : Int)
      rw [start3_2, window3_2, ← h2]; simp

end Rows3

/-- Rows `[1600000, 1, 64]` accumulated into `[100000, 1, 64]`. -/
theorem scatterAdd_rows3 [Cert.ReferenceIdeal.Facts] (x : FVec Ideal Cert.ReferenceIdeal.S100000x1x64 .f32)
    (idx : IVec Cert.ReferenceIdeal.S1600000x1 32) (upd : FVec Ideal Cert.ReferenceIdeal.S1600000x1x64 .f32) (n : Fin 100000) (q : Fin 64) :
    Host.scatterAdd (F := Ideal) Cert.ReferenceIdeal.scatter_S100000x1x64_S1600000x1_S1600000x1x64_12_0_0_1 x idx upd (ix3 n (0 : Fin 1) q)
      = x (ix3 n (0 : Fin 1) q) + ∑ e ∈ Finset.univ.filter (fun e : Fin 1600000 => (idx (ix2 e (0 : Fin 1))).toInt = (n.val : Int)),
          upd (ix3 e (0 : Fin 1) q) := by
  show x (ix3 n (0 : Fin 1) q) + _ = _
  refine congrArg (x (ix3 n (0 : Fin 1) q) + ·) ?_
  have key : ∀ j : Cert.ReferenceIdeal.S1600000x1x64.Idx,
      ix3 (j 0 : Fin 1600000) (0 : Fin 1) (j 2 : Fin 64) = j := fun j =>
    (congrArg (fun b : Fin 1 => ix3 (j 0 : Fin 1600000) b (j 2 : Fin 64))
      (Subsingleton.elim (α := Fin 1) (0 : Fin 1) (j 1))).trans (eq_ix3 j).symm
  refine Finset.sum_nbij' (fun j => (j 0 : Fin 1600000)) (fun e => ix3 e (0 : Fin 1) q) ?_ ?_ ?_ ?_ ?_
  · intro j hj
    exact Finset.mem_filter.mpr ⟨Finset.mem_univ _, ((resultIdx3_iff idx j n q).mp (Finset.mem_filter.mp hj).2).1⟩
  · intro e he
    exact Finset.mem_filter.mpr
      ⟨Finset.mem_univ _, (resultIdx3_iff idx (ix3 e (0 : Fin 1) q) n q).mpr ⟨(Finset.mem_filter.mp he).2, rfl⟩⟩
  · intro j hj
    have hq := ((resultIdx3_iff idx j n q).mp (Finset.mem_filter.mp hj).2).2
    subst hq
    exact key j
  · intro e _
    rfl
  · intro j hj
    have hq := ((resultIdx3_iff idx j n q).mp (Finset.mem_filter.mp hj).2).2
    subst hq
    exact congrArg upd (key j).symm

end Cert.ScatterRead

end
-- ==== Proof.Bridge.lean ====
import proofs.«117152_j56118042689984_1_alg».proof.Proof.RefValue
import proofs.«117152_j56118042689984_1_alg».proof.Proof.KernelResult
import proofs.«117152_j56118042689984_1_alg».proof.Proof.KernelMsg
import proofs.«117152_j56118042689984_1_alg».proof.Proof.ScatterRead
import proofs.«117152_j56118042689984_1_alg».proof.Proof.LibViews

/-!
  The two programs' results are one array. Both accumulate per-edge messages into zeros by the destination index:
  at node `n`, column `q` each result is `0 + ∑` over the edges whose destination index is `n` of the edge's
  message at column `q`. The kernel's message is `(∑ k, (cat k + ef k) · W k q + b q) · (ns · nd)`, the reference's
  the same with the normaliser on the left; the product of extended reals commutes, so the summands agree edge by edge.
-/

noncomputable section

open scoped BigOperators

namespace Cert.Bridge

open Idealize.ShloMosaic Idealize.ShloMosaic.TcCoe Idealize.ShloMosaic.ValueIdx Idealize.SL.Sem
open Cert.KernelIdeal Cert.KernelIdeal.Gen Cert.KernelArrays Cert.KernelMsg

variable (m : (ℓ : Loc nD τ sig) → Buf (Elt Ideal) ℓ)

/-- The reference wraps the start indices exactly as the kernel's host lines do. -/
theorem wrap_dst (x : IVec S1600000 32) : Cert.RefValue.dstIdx x = Cert.HostTerms.wrapIdx x := rfl
theorem wrap_src (x : IVec S1600000 32) : Cert.RefValue.srcIdx x = Cert.HostTerms.wrapIdx x := rfl
/-- And computes the same normaliser. -/
theorem nrm_eq (x : IVec S1600000 32) : Cert.RefValue.nrm x = Cert.HostTerms.nrm x := rfl

/-- Edge by edge, the reference's message is the kernel's. -/
theorem msg_eq (c : Dev nD) (e : Fin 1600000) (q : Fin 64) :
    Cert.ReferenceIdeal.Read.val_main_v46 (F := Ideal) (x0 m c) (x1 m c) (x2 m c) (x3 m c) (x4 m c) (x5 m c) (ix3 e (0 : Fin 1) q)
      = msgs m c (ix2 e q) := by
  rw [Cert.RefValue.ref_msg, msgs_read, wrap_dst, wrap_src, nrm_eq]

/-- THE RESULTS AGREE: the reference's result term of the kernel's launch contents is the kernel's result. -/
theorem result_eq (c : Dev nD) :
    Cert.ReferenceIdeal.Read.val_main_v49 (F := Ideal) (x0 m c) (x1 m c) (x2 m c) (x3 m c) (x4 m c) (x5 m c)
      = Cert.KernelResult.result m c := by
  funext i
  obtain ⟨n, z, q, rfl⟩ : ∃ (n : Fin 100000) (z : Fin 1) (q : Fin 64), i = ix3 n z q := ⟨i 0, i 1, i 2, eq_ix3 i⟩
  obtain rfl : z = 0 := Subsingleton.elim _ _
  unfold Cert.ReferenceIdeal.Read.val_main_v49 Cert.KernelResult.result
  rw [Cert.ScatterRead.scatterAdd_rows3]
  refine Eq.trans ?_ (Cert.Lib.Views.shapeCast_ab_a1b_apply _ _ n q).symm
  rw [Cert.ScatterRead.scatterAdd_rows2]
  refine congrArg₂ (· + ·) ?_ (Finset.sum_congr rfl fun e _ => msg_eq m c e q)
  -- the two zero arrays
  refine (Cert.ReferenceIdeal.Read.val_main_v47_apply (F := Ideal) _).trans ?_
  exact (broadcastInDim_apply _ bcast_S_S100000x64 (constant (F := Ideal) S_ .f32 0x00000000#32) (ix2 n q) (fun a => a.elim0)
    (fun a => a.elim0)).symm

end Cert.Bridge

end
-- ==== Proof.lean ====
/- The proof of `Cert.Claim`: a graph layer's message passing, gridded over blocks of 4000 edges, against its jnp reference.
   Both programs compute, per edge, `(∑ k, (cat k + ef k) · W k q + b q)` scaled by the product of the source's and the
   destination's degree normalisers (`cat` the destination's feature row followed by the source's), and accumulate the
   edges' messages by destination node. The kernel scales on the right and the reference on the left: on the extended
   reals the product commutes, so the results agree with no use of the precondition.
   The three frames are the generated ones (the reference's is its generated run with the result dropped); the ideal pass
   rewrote nothing, so `preserves` is `True`; the value claim joins the kernel program's run (the array of messages block
   by block, then the host lines around the region) to the reference's run read one operation at a time. -/
import proofs.«117152_j56118042689984_1_alg».proof.Defs
import proofs.«117152_j56118042689984_1_alg».proof.Proof.Gen.Kernel
import proofs.«117152_j56118042689984_1_alg».proof.Proof.Gen.Kernel.Skeleton
import proofs.«117152_j56118042689984_1_alg».proof.Proof.Gen.Kernel.Launch
import proofs.«117152_j56118042689984_1_alg».proof.Proof.Gen.Kernel.Points
import proofs.«117152_j56118042689984_1_alg».proof.Proof.Gen.Kernel.Frame
import proofs.«117152_j56118042689984_1_alg».proof.Proof.Gen.KernelIdeal
import proofs.«117152_j56118042689984_1_alg».proof.Proof.Gen.KernelIdeal.Skeleton
import proofs.«117152_j56118042689984_1_alg».proof.Proof.Gen.KernelIdeal.Launch
import proofs.«117152_j56118042689984_1_alg».proof.Proof.Gen.KernelIdeal.Points
import proofs.«117152_j56118042689984_1_alg».proof.Proof.Gen.KernelIdeal.Frame
import proofs.«117152_j56118042689984_1_alg».proof.Proof.Gen.ReferenceIdeal
import proofs.«117152_j56118042689984_1_alg».proof.Proof.Gen.Pre_finite_inputs
import proofs.«117152_j56118042689984_1_alg».proof.Proof.Gen.ReferenceIdeal.Run
import proofs.«117152_j56118042689984_1_alg».proof.Proof.Gen.ReferenceIdeal.Read
import proofs.«117152_j56118042689984_1_alg».proof.Proof.KernelValue
import proofs.«117152_j56118042689984_1_alg».proof.Proof.Bridge
import Idealize.ShloMosaic.Adequacy
import Idealize.ShloMosaic.Init

noncomputable section

namespace Cert.Proof

open Idealize.ShloMosaic Idealize.SL.Sem Cert.Kernel

/-- The reference's frame: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel program ends with its result at the accumulated messages of its launch contents, and
    the reference, launched on the same arguments, at the same array. -/
theorem algebraic : Cert.algebraic_KernelIdeal_ReferenceIdeal := by
  intro m ρ m' ρ' _ hagree
  refine ⟨fun c => Cert.KernelResult.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2.1, (hagree c).2.2.2.1,
    (hagree c).2.2.2.2.1, (hagree c).2.2.2.2.2]
  exact Cert.Bridge.result_eq m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
